-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .hbm, ⟨5, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.Spec.lean ====
/-
  RMS normalisation over the last axis, as ONE function of the argument arrays on the extended reals:
  every entry of a row is scaled by the reciprocal root of (the row's mean square plus a small constant) and by
  the gain of its column. Stated once here, with the one law that joins the two programs: on a non-negative
  extended real the reciprocal square root is the quotient of one by the square root.
-/
import Idealize.ShloMosaic.PureOps.Ideal
import Idealize.ShloMosaic.PureOps.Ideal.Laws
import Idealize.ShloMosaic.Lib.ValueIdx

noncomputable section

namespace Cert.RmsSpec

open Idealize.ShloMosaic Idealize.ShloMosaic.ValueIdx

/-! ## The three constants -/

/-- The word both programs divide the sum of squares by denotes the real 4096. -/
theorem ofBits_4096 : Ideal.ofBits .f32 0x45800000#32 = ((4096 : ℝ) : EReal) := by
  simp [Ideal.ofBits, Ideal.ieee, -EReal.coe_mul]; norm_num

/-- The word the reference takes the quotient of denotes 1. -/
theorem ofBits_one : Ideal.ofBits .f32 0x3F800000#32 = 1 := by
  simp [Ideal.ofBits, Ideal.ieee, -EReal.coe_mul]; norm_num

/-- The small constant added to the mean square is non-negative (its sign bit is clear). -/
theorem ofBits_eps_nonneg : 0 ≤ Ideal.ofBits .f32 0x358637BD#32 := by
  simp [Ideal.ofBits, Ideal.ieee, -EReal.coe_mul]

/-! ## The law: `rsqrt y = 1 / sqrt y` on the non-negative extended reals

At `0` both are `+∞`, at `+∞` both are `0`, at a positive real both are the real `(√y)⁻¹`. (Below zero they
differ — `⊥` against `1 / ⊥ = 0` — which is why the argument's sign is established first.) -/

theorem rsqrt_eq_one_div_sqrt (y : EReal) (hy : 0 ≤ y) : Ideal.rsqrt y = Ideal.div 1 (Ideal.sqrt y) := by
  induction y using EReal.rec with
  | bot => exact absurd hy (by simp)
  | top =>
    rw [Ideal.rsqrt_top, Ideal.sqrt_top, Ideal.div, if_neg (by simp)]
    simp
  | coe r =>
    have hr : 0 ≤ r := by exact_mod_cast hy
    rw [Ideal.rsqrt_coe, Ideal.sqrt_coe, if_neg (not_lt.2 hr), if_neg (not_lt.2 hr)]
    by_cases h0 : r = 0
    · subst h0
      rw [if_pos rfl, Real.sqrt_zero, Ideal.div, if_pos (by simp), if_pos (by simp)]
    · rw [if_neg h0]
      have hs : Real.sqrt r ≠ 0 := (Real.sqrt_ne_zero hr).2 h0
      rw [Ideal.div_coe hs, one_mul, one_div]

/-! ## The function -/

/-- The input and result arrays' shape, and the gain's. -/
abbrev X3 : Shape := ⟨3, ![4, 4096, 4096]⟩
abbrev W1 : Shape := ⟨1, ![4096]⟩

/-- The sum of the squares of row `(b, s)`. -/
def rowSq (x : X3.Idx → EReal) (b : Fin 4) (s : Fin 4096) : EReal :=
  ∑ k : Fin 4096, x (ix3 b s k) * x (ix3 b s k)

/-- A square is non-negative on the extended reals too (`⊥ · ⊥ = ⊤`), so a sum of squares is. -/
theorem rowSq_nonneg (x : X3.Idx → EReal) (b : Fin 4) (s : Fin 4096) : 0 ≤ rowSq x b s :=
  Finset.sum_nonneg fun k _ => EReal.mul_nonneg_iff.mpr
    ((le_total 0 (x (ix3 b s k))).imp (fun h => ⟨h, h⟩) (fun h => ⟨h, h⟩))

/-- The mean square plus the small constant: what the root is taken of. -/
def shifted (q : EReal) : EReal :=
  Ideal.div q (Ideal.ofBits .f32 0x45800000#32) + Ideal.ofBits .f32 0x358637BD#32

theorem shifted_nonneg (q : EReal) (hq : 0 ≤ q) : 0 ≤ shifted q := by
  unfold shifted
  refine add_nonneg ?_ ofBits_eps_nonneg
  rw [ofBits_4096, Ideal.div_coe (by norm_num)]
  exact EReal.mul_nonneg hq (by exact_mod_cast (by norm_num : (0 : ℝ) ≤ 1 / 4096))

/-- The result: `x · rsqrt (mean square + ε) · gain`, index by index. -/
def G (x : X3.Idx → EReal) (w : W1.Idx → EReal) : X3.Idx → EReal := fun i =>
  x i * Ideal.rsqrt (shifted (rowSq x (i 0) (i 1))) * w (ix1 (i 2))

/-- The reference's spelling of the scale, `1 / sqrt (mean square + ε)`, is the kernel's `rsqrt` of it. -/
theorem one_div_sqrt_shifted (x : X3.Idx → EReal) (b : Fin 4) (s : Fin 4096) :
    Ideal.div (Ideal.ofBits .f32 0x3F800000#32) (Ideal.sqrt (shifted (rowSq x b s)))
      = Ideal.rsqrt (shifted (rowSq x b s)) := by
  rw [ofBits_one, rsqrt_eq_one_div_sqrt _ (shifted_nonneg _ (rowSq_nonneg x b s))]

end Cert.RmsSpec

end
-- ==== Proof.Payload.lean ====
/-
  The kernel body's one stored value, read at an entry `(p, q)` of a block of 512 rows: the entry times the
  reciprocal root of (the row's mean square plus the small constant) times the gain of column `q`. The row's sum of
  squares is a lane reduction over the block's second axis, kept as a column, and broadcast back along the row;
  the gain is one row broadcast over all 512.
-/
import proofs.«140673_g84713934946541_pilotgen1_326_4_alg».proof.Proof.Gen.KernelIdeal.Skeleton
import proofs.«140673_g84713934946541_pilotgen1_326_4_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Rms

open Cert.KernelIdeal Cert.KernelIdeal.Gen Idealize.ShloMosaic Idealize.ShloMosaic.ValueIdx Idealize.ShloMosaic.Pipeline

/-- A column `[512, 1]` broadcast to `[512, 4096]` reads, at `(p, q)`, the column's entry of row `p`. -/
theorem bcast_col (v : S512x1.Idx → EReal) (h : S512x1.Broadcasts S512x4096) (p : Fin 512) (q : Fin 4096) :
    broadcastTo S512x4096 v h (ix2 p q) = v (ix2 p (0 : Fin 1)) := by
  refine broadcastTo_apply v h (ix2 p q) (ix2 p (0 : Fin 1)) fun ax => ?_
  match ax with
  | ⟨0, _⟩ => show p.val = if (512 : Nat) = 1 then 0 else p.val; rw [if_neg (by decide)]
  | ⟨1, _⟩ => show 0 = if (1 : Nat) = 1 then 0 else q.val; rw [if_pos rfl]

/-- A vector `[512]` cast to the column `[512, 1]` reads, at `(p, 0)`, the vector at `p`. -/
theorem cast_col (v : S512.Idx → EReal) (h : S512.ShapeCasts S512x1) (p : Fin 512) (u : Fin 1) :
    shapeCast S512x1 v h (ix2 p u) = v (ix1 p) :=
  shapeCast_apply v h _ _ (by
    rw [Shape.rowMajor_val_one, Shape.rowMajor_val_two]
    show p.val = p.val * 1 + u.val
    have := u.isLt; omega)

/-- The lane sum over the second axis of `[512, 4096]`, read at row `p`: the sum over the row's 4096 entries. -/
theorem row_sum (v : FVec Ideal S512x4096 .f32) (p : Fin 512) :
    multiReduction .add [1] S512 v 0x00000000#32 reduces_S512x4096_S512 (.inl rfl) rfl (ix1 p)
      = ∑ k : Fin 4096, v (ix2 p k) := by
  refine (Ideal.multiReduction_add_single v _ reduces_S512x4096_S512 (.inl rfl) rfl (ix1 p)).trans ?_
  refine Finset.sum_congr rfl fun k _ => congrArg v ?_
  exact funext fun a => Fin.ext (by match a with | ⟨0, _⟩ => rfl | ⟨1, _⟩ => rfl)

/-- THE PAYLOAD AT AN ENTRY. -/
theorem pay_apply (x0 : Vec Ideal S512x4096 .f32) (g : Vec Ideal S1x4096 .f32) (p : Fin 512) (q : Fin 4096) :
    k0_pay1 (F := Ideal) x0 g (ix2 p q)
      = x0 (ix2 p q) * Ideal.rsqrt (Cert.RmsSpec.shifted (∑ k : Fin 4096, x0 (ix2 p k) * x0 (ix2 p k)))
          * g (ix2 (0 : Fin 1) q) := by
  unfold k0_pay1
  simp only [shapeCast_self]
  rw [mulf_apply, mulf_apply, broadcastTo_1b_ab_apply, bcast_col]
  show x0 (ix2 p q) * Ideal.rsqrt (Ideal.div (shapeCast S512x1 (multiReduction (F := Ideal) .add [1] S512 (mulf (F := Ideal) x0 x0) 0x00000000#32
      reduces_S512x4096_S512 (.inl rfl) rfl) shapeCasts_S512_S512x1 (ix2 p (0 : Fin 1))) (Ideal.ofBits .f32 0x45800000#32)
      + Ideal.ofBits .f32 0x358637BD#32) * g (ix2 (0 : Fin 1) q) = _
  rw [cast_col, row_sum]
  rfl

end Cert.KernelIdeal.Rms

end
-- ==== Proof.Flat.lean ====
/-
  The same function on the array with its two leading axes merged: row `(b, s)` of `[4, 4096, 4096]` is row
  `b · 4096 + s` of `[16384, 4096]`, and the gain `[4096]` is the one row of `[1, 4096]`. Normalising the rows of
  the merged array and splitting the leading axis again is the specification's function.
-/
import proofs.«140673_g84713934946541_pilotgen1_326_4_alg».proof.Proof.Spec
import Idealize.ShloMosaic.Lib.Pipeline.Value
import Idealize.ShloMosaic.Lib.ValueLayout
import Idealize.ShloMosaic.Lib.ValueIdx

noncomputable section

namespace Cert.RmsSpec

open Idealize.ShloMosaic Idealize.ShloMosaic.ValueIdx Idealize.ShloMosaic.Pipeline

abbrev X2 : Shape := ⟨2, ![16384, 4096]⟩
abbrev W2 : Shape := ⟨2, ![1, 4096]⟩

/-- Row-wise normalisation of the merged array. -/
def Gflat (x2 : X2.Idx → EReal) (w2 : W2.Idx → EReal) : X2.Idx → EReal := fun i =>
  x2 i * Ideal.rsqrt (shifted (∑ k : Fin 4096, x2 (ix2 (i 0) k) * x2 (ix2 (i 0) k))) * w2 (ix2 (0 : Fin 1) (i 1))

/-- Row `(b, s)` in the merged array. -/
def flatRow (b : Fin 4) (s : Fin 4096) : Fin 16384 := ⟨b.val * 4096 + s.val, by omega⟩

/-- Merging the leading axes: entry `(b·4096 + s, k)` is entry `(b, s, k)`. -/
theorem cast_flat (x : X3.Idx → EReal) (h : X3.ShapeCasts X2) (b : Fin 4) (s : Fin 4096) (k : Fin 4096) :
    shapeCast X2 x h (ix2 (flatRow b s) k) = x (ix3 b s k) :=
  shapeCast_apply x h _ _ (by
    rw [Shape.rowMajor_val_three, Shape.rowMajor_val_two]
    show (b.val * 4096 + s.val) * 4096 + k.val = (b.val * 4096 + s.val) * 4096 + k.val
    rfl)

/-- Splitting them again: entry `(b, s, j)` is entry `(b·4096 + s, j)`. -/
theorem cast_unflat (y : X2.Idx → EReal) (h : X2.ShapeCasts X3) (b : Fin 4) (s : Fin 4096) (j : Fin 4096) :
    shapeCast X3 y h (ix3 b s j) = y (ix2 (flatRow b s) j) :=
  shapeCast_apply y h _ _ (by
    rw [Shape.rowMajor_val_three, Shape.rowMajor_val_two]
    show (b.val * 4096 + s.val) * 4096 + j.val = (b.val * 4096 + s.val) * 4096 + j.val
    rfl)

/-- Merge, normalise the rows, split: the specification. -/
theorem unflat_Gflat (x : X3.Idx → EReal) (w : W1.Idx → EReal) (h1 : X3.ShapeCasts X2) (h2 : W1.ShapeCasts W2)
    (h3 : X2.ShapeCasts X3) :
    shapeCast X3 (Gflat (shapeCast X2 x h1) (shapeCast W2 w h2)) h3 = G x w := by
  funext i
  obtain ⟨b, s, j, rfl⟩ : ∃ (b : Fin 4) (s : Fin 4096) (j : Fin 4096), i = ix3 b s j := ⟨i 0, i 1, i 2, eq_ix3 i⟩
  rw [cast_unflat]
  show shapeCast X2 x h1 (ix2 (flatRow b s) j)
      * Ideal.rsqrt (shifted (∑ k : Fin 4096, shapeCast X2 x h1 (ix2 (flatRow b s) k) * shapeCast X2 x h1 (ix2 (flatRow b s) k)))
      * shapeCast W2 w h2 (ix2 (0 : Fin 1) j)
    = x (ix3 b s j) * Ideal.rsqrt (shifted (∑ k : Fin 4096, x (ix3 b s k) * x (ix3 b s k))) * w (ix1 j)
  simp only [cast_flat, shapeCast_a_1a_apply]

end Cert.RmsSpec

end
-- ==== Proof.KernelValue.lean ====
/-
  What the kernel program leaves in its result array, at the ideal instance. The merged array `[16384, 4096]` is cut
  into 32 blocks of 512 whole rows; grid point `t` reads block `t` of the input and the one row of the gain, and
  writes block `t` of the output. A row's normalisation depends on that row alone, and a block holds whole rows, so
  what point `t` writes is block `t` of the row-wise normalisation of the merged input; the 32 blocks cover the
  array. Around the region the program merges the input's leading axes and splits the output's again.
-/
import proofs.«140673_g84713934946541_pilotgen1_326_4_alg».proof.Proof.Gen.KernelIdeal.Frame
import proofs.«140673_g84713934946541_pilotgen1_326_4_alg».proof.Proof.Payload
import proofs.«140673_g84713934946541_pilotgen1_326_4_alg».proof.Proof.Flat
import Idealize.ShloMosaic.Lib.Pipeline.Value
import Idealize.ShloMosaic.Lib.StableHlo.Run

noncomputable section

namespace Cert.KernelIdeal.Rms

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The merged input and the gain's row as the region finds them, at their literal types. -/
abbrev xarr (c : Dev nD) : S16384x4096.Idx → EReal := V m c main_v0
abbrev garr (c : Dev nD) : S1x4096.Idx → EReal := V m c main_v1

theorem hz : (![0, 0] : Fin 2 → Nat) = fun _ => 0 := funext fun a => by fin_cases a <;> rfl

/-- The printed index maps over the 32 points: input and output block `t` are rows `512 t …`, all columns; the gain's
    block is always its one row. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt32 (t : Fin cfg0.N) : t.val < 32 := lt_of_lt_of_eq t.isLt N_0

/-- Entry `(p, k)` of the input's block at point `t` is entry `(512 t + p, k)` of the merged input. -/
theorem emb0 (t : Fin cfg0.N) (p : Fin 512) (k : Fin 4096) :
    (((cfg0.win 0).blk t).view.emb (ix2 p k) : S16384x4096.Idx)
      = ix2 (⟨t.val * 512 + p.val, by have := lt32 t; omega⟩ : Fin 16384) k := by
  obtain ⟨e0, e1, -, -, -, -⟩ := idx_facts t
  funext a; apply Fin.ext
  match a with
  | ⟨0, _⟩ => show win0_0.index t (0 : Fin 2) * 512 + 1 * p.val = t.val * 512 + p.val; omega
  | ⟨1, _⟩ => show win0_0.index t (1 : Fin 2) * 4096 + 1 * k.val = k.val; omega

/-- Entry `(u, q)` of the gain's block is entry `(0, q)` of the gain's one row. -/
theorem emb1 (t : Fin cfg0.N) (u : Fin 1) (q : Fin 4096) :
    (((cfg0.win 1).blk t).view.emb (ix2 u q) : S1x4096.Idx) = ix2 (0 : Fin 1) q := by
  obtain ⟨-, -, e2, e3, -, -⟩ := idx_facts t
  funext a; apply Fin.ext
  match a with
  | ⟨0, _⟩ => show win0_1.index t (0 : Fin 2) * 1 + 1 * u.val = 0; have := u.isLt; omega
  | ⟨1, _⟩ => show win0_1.index t (1 : Fin 2) * 4096 + 1 * q.val = q.val; omega

/-- Entry `(p, q)` of the output's block at point `t` is entry `(512 t + p, q)` of the merged output. -/
theorem emb2 (t : Fin cfg0.N) (p : Fin 512) (q : Fin 4096) :
    (((cfg0.win 2).blk t).view.emb (ix2 p q) : S16384x4096.Idx)
      = ix2 (⟨t.val * 512 + p.val, by have := lt32 t; omega⟩ : Fin 16384) q := by
  obtain ⟨-, -, -, -, e4, e5⟩ := idx_facts t
  funext a; apply Fin.ext
  match a with
  | ⟨0, _⟩ => show win0_2.index t (0 : Fin 2) * 512 + 1 * p.val = t.val * 512 + p.val; omega
  | ⟨1, _⟩ => show win0_2.index t (1 : Fin 2) * 4096 + 1 * q.val = q.val; omega

/-- WHAT POINT `t` WRITES BACK is block `t` of the row-wise normalisation of the merged input by the gain's row. -/
theorem flushed_eq (c : Dev nD) (t : Fin cfg0.N) :
    (dats m 0 c).flushed 2 t
      = ((cfg0.win 2).blk t).view.read (Elt Ideal) (Cert.RmsSpec.Gflat (xarr m c) (garr m c)) := by
  show (cfg0.win 2).cut (grid0.coords t) ((dats m 0 c).after 2 t) = _
  rw [after0_2]
  unfold out0_2
  rw [View.canon_unit_zero hz]
  simp only [View.ld_unit_zero (S := S512x4096) hz, View.ld_unit_zero (S := S1x4096) hz]
  funext j
  obtain ⟨p, q, rfl⟩ : ∃ (p : Fin 512) (q : Fin 4096), j = ix2 p q := ⟨j 0, j 1, eq_ix2 j⟩
  show k0_pay1 (F := Ideal) (iblk m c 0 t) (iblk m c 1 t) (ix2 p q)
    = Cert.RmsSpec.Gflat (xarr m c) (garr m c) (((cfg0.win 2).blk t).view.emb (ix2 p q))
  refine (pay_apply (iblk m c 0 t) (iblk m c 1 t) p q).trans ?_
  rw [emb2]
  show xarr m c (((cfg0.win 0).blk t).view.emb (ix2 p q))
      * Ideal.rsqrt (Cert.RmsSpec.shifted (∑ k : Fin 4096, xarr m c (((cfg0.win 0).blk t).view.emb (ix2 p k))
          * xarr m c (((cfg0.win 0).blk t).view.emb (ix2 p k))))
      * garr m c (((cfg0.win 1).blk t).view.emb (ix2 (0 : Fin 1) q))
    = xarr m c (ix2 (⟨t.val * 512 + p.val, by have := lt32 t; omega⟩ : Fin 16384) q)
      * Ideal.rsqrt (Cert.RmsSpec.shifted (∑ k : Fin 4096, xarr m c (ix2 (⟨t.val * 512 + p.val, by have := lt32 t; omega⟩ : Fin 16384) k)
          * xarr m c (ix2 (⟨t.val * 512 + p.val, by have := lt32 t; omega⟩ : Fin 16384) k)))
      * garr m c (ix2 (0 : Fin 1) q)
  have h0 : ∀ k : Fin 4096, xarr m c (((cfg0.win 0).blk t).view.emb (ix2 p k))
      = xarr m c (ix2 (⟨t.val * 512 + p.val, by have := lt32 t; omega⟩ : Fin 16384) k) :=
    fun k => congrArg (xarr m c) (emb0 t p k)
  have h1 : garr m c (((cfg0.win 1).blk t).view.emb (ix2 (0 : Fin 1) q)) = garr m c (ix2 (0 : Fin 1) q) :=
    congrArg (garr m c) (emb1 t 0 q)
  exact congrArg₂ (· * ·) (congrArg₂ (· * ·) (h0 q) (congrArg (fun z => Ideal.rsqrt (Cert.RmsSpec.shifted z))
    (Finset.sum_congr rfl fun k _ => congrArg₂ (· * ·) (h0 k) (h0 k)))) h1

/-- An index of the merged output is in point `t`'s block iff each coordinate is in the block's range on its axis. -/
theorem mem_blk (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v2).slice (win0_2.rect t)).set ↔ _
  rw [View.set_slice_whole, Rect.mem_set_unit]
  exact Iff.rfl

/-- Row `r` lies in block `r / 512`: the 32 blocks cover the array. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  let t : Fin cfg0.N := ⟨(i 0).val / 512, lt_of_lt_of_eq (by omega : (i 0).val / 512 < 32) N_0.symm⟩
  obtain ⟨-, -, -, -, e4, e5⟩ := idx_facts t
  have e4' : win0_2.index t (0 : Fin 2) = (i 0).val / 512 := e4
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- THE MERGED OUTPUT after the region. -/
theorem final (c : Dev nD) :
    (dats m 0 c).arrAt 2 cfg0.N = Cert.RmsSpec.Gflat (xarr m c) (garr m c) :=
  (dats m 0 c).arrAt_eq_of_cover 2 _ (fun t _ => flushed_eq m c t) cover

end Cert.KernelIdeal.Rms

end
-- ==== Proof.KernelRun.lean ====
/-
  The kernel program's run at the ideal instance, with its result named: before the region the program merges the
  input's two leading axes and makes the gain a one-row matrix; after it, it splits the result's leading axis again.
  With the region's output the row-wise normalisation of the merged input, the result is the specification's function
  of the two arguments.
-/
import proofs.«140673_g84713934946541_pilotgen1_326_4_alg».proof.Proof.KernelValue

noncomputable section

namespace Cert.KernelIdeal.Rms

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region finds the input with its leading axes merged, -/
theorem V_v0 (c : Dev nD) :
    (V m c main_v0 : S16384x4096.Idx → EReal)
      = shapeCast S16384x4096 (m ((c : Thread nD τ).loc main_arg0)) shapeCasts_S4x4096x4096_S16384x4096 := by
  show StableHlo.after hostOps0 (fun b => m (c, b)) (Proc.devRef .tc main_v0) = _
  after_results
  rfl

/-- and the gain as one row. -/
theorem V_v1 (c : Dev nD) :
    (V m c main_v1 : S1x4096.Idx → EReal)
      = shapeCast S1x4096 (m ((c : Thread nD τ).loc main_arg1)) shapeCasts_S4096_S1x4096 := by
  show StableHlo.after hostOps0 (fun b => m (c, b)) (Proc.devRef .tc main_v1) = _
  after_results
  rfl

/-- The program's result: the region's output with its leading axis split. -/
theorem tail_v3 (c : Dev nD) :
    Pipeline.afterTail₀ cfgs (dats m) 0 (V0 m) [hostOps1] c main_v3
      = shapeCast S4x4096x4096 ((dats m 0 c).arrAt 2 cfg0.N) shapeCasts_S16384x4096_S4x4096x4096 := by
  unfold Pipeline.afterTail₀
  show StableHlo.after hostOps1 _ (Proc.devRef .tc main_v3) = _
  after_results
  have hw := Pipeline.withArrays_arr spec0 launch0.win.arr_inj c (V0 m c) (fun w => (dats m 0 c).arrAt w cfg0.N) 2
  refine Eq.trans ?_ (congrArg (fun y => shapeCast S4x4096x4096 y shapeCasts_S16384x4096_S4x4096x4096) hw)
  rfl

/-- THE RESULT: the specification's function of the two arguments as launched. -/
theorem result_eq (c : Dev nD) :
    Pipeline.afterTail₀ cfgs (dats m) 0 (V0 m) [hostOps1] c main_v3
      = Cert.RmsSpec.G (m ((c : Thread nD τ).loc main_arg0)) (m ((c : Thread nD τ).loc main_arg1)) := by
  rw [tail_v3, final]
  show shapeCast S4x4096x4096 (Cert.RmsSpec.Gflat (V m c main_v0) (V m c main_v1)) shapeCasts_S16384x4096_S4x4096x4096 = _
  rw [V_v0, V_v1]
  exact Cert.RmsSpec.unflat_Gflat _ _ _ _ _

/-- THE RUN: every weakly fair execution of the kernel program terminates with the result array at the
    specification's function of the arguments, and the arguments as launched. -/
theorem run : θ_run defs (onTc (τ := τ) (main (F := Ideal))) ⟨m, fun _ => 0, ρ⟩ fun r => ∀ c : Dev nD,
      r.2.mem ((c : Thread nD τ).loc main_v3)
        = Cert.RmsSpec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Rms

end
-- ==== Proof.RefValue.lean ====
/-
  The reference program's result, read one operation at a time at an index, is the specification's function of the
  two argument arrays: the row's sum of squares (a host reduction from zero), its quotient by 4096, the small
  constant added, the square root, the quotient of one by it (the specification's reciprocal root, by the law for a
  non-negative argument), broadcast along the row, times the entry, times the column's gain.
-/
import proofs.«140673_g84713934946541_pilotgen1_326_4_alg».proof.Proof.Gen.ReferenceIdeal.Run
import proofs.«140673_g84713934946541_pilotgen1_326_4_alg».proof.Proof.Gen.ReferenceIdeal.Read
import proofs.«140673_g84713934946541_pilotgen1_326_4_alg».proof.Proof.Spec

noncomputable section

namespace Cert.ReferenceIdeal.RefValue

open Cert.ReferenceIdeal Cert.ReferenceIdeal.Read Idealize.ShloMosaic Idealize.ShloMosaic.ValueIdx

/-- The composed index maps of the reduction's operand: row `(i 0, i 1)`, column `k`. -/
theorem idx_row (i : S4x4096x4096.Idx) (k : Fin 4096) :
    idx_main_v1 (idx_main_v2 (idx_main_v10 i)) k = ix3 (n0 := 4) (n1 := 4096) (n2 := 4096) (i 0) (i 1) k :=
  funext fun a => Fin.ext (by match a with | ⟨0, _⟩ => rfl | ⟨1, _⟩ => rfl | ⟨2, _⟩ => rfl)

/-- The composed index maps of the gain: column `i 2`. -/
theorem idx_gain (i : S4x4096x4096.Idx) : idx_main_v12 (idx_main_v13 i) = ix1 (n := 4096) (i 2) :=
  funext fun a => Fin.ext (by match a with | ⟨0, _⟩ => rfl)

theorem result_eq (x : (⟨S4x4096x4096, .f32⟩ : BufTy).Contents (Elt Ideal)) (w : (⟨S4096, .f32⟩ : BufTy).Contents (Elt Ideal)) :
    val_main_v14 (F := Ideal) x w = Cert.RmsSpec.G x w := by
  funext i
  rw [val_main_v14_apply, val_main_v11_apply, val_main_v10_apply, val_main_v9_apply, val_main_v8_apply,
    val_main_cst_2_apply, val_main_v7_apply, val_main_v6_apply, val_main_v4_apply, val_main_v5_apply,
    val_main_cst_1_apply, val_main_v2_apply, val_main_v3_apply, val_main_cst_0_apply, val_main_v1_apply,
    val_main_cst_apply, val_main_v13_apply, val_main_v12_apply]
  simp only [val_main_v0_apply, idx_row, idx_gain, Ideal.mulf_def, Ideal.addf_def, Ideal.hostDivf_def,
    Ideal.hostUnary_sqrt_def, Ideal.ofBits_def, Ideal.ofBits_zero_f32, zero_add]
  unfold Cert.RmsSpec.G
  refine congrArg₂ (· * ·) (congrArg (x i * ·) ?_) rfl
  exact Cert.RmsSpec.one_div_sqrt_shifted x (i 0) (i 1)

end Cert.ReferenceIdeal.RefValue

end
-- ==== Proof.lean ====
/-
  RMS normalisation of a `[4, 4096, 4096]` array over its last axis, scaled by a gain per column: a kernel that
  normalises 512 whole rows per grid point on the merged `[16384, 4096]` array with a reciprocal square root,
  against a reference that divides one by the square root.

  On the extended reals both programs compute, at entry `(b, s, j)`,
      x[b,s,j] · (Σₖ x[b,s,k]² / 4096 + ε)^(-1/2) · w[j]
  with the same two constants. The one difference is the spelling of the scale: the kernel's `rsqrt y` against the
  reference's `1 / sqrt y`. The two agree on every non-negative extended real (at `0` both are `+∞`, at `+∞` both
  `0`), and `y` is a sum of squares over a positive constant plus a non-negative constant, hence non-negative
  whatever the entries are: the input's finiteness is not used.

  The kernel side: the payload at an entry of a block (Proof/Payload.lean), a block of 512 whole rows as a block of
  the row-wise normalisation and the 32 blocks covering the array (Proof/KernelValue.lean), the reshapes around
  the region (Proof/Flat.lean, Proof/KernelRun.lean). The reference side: its operations read at an index
  (Proof/RefValue.lean). The specification and the law: Proof/Spec.lean.
-/
import proofs.«140673_g84713934946541_pilotgen1_326_4_alg».proof.Defs
import proofs.«140673_g84713934946541_pilotgen1_326_4_alg».proof.Proof.Gen.Kernel
import proofs.«140673_g84713934946541_pilotgen1_326_4_alg».proof.Proof.Gen.Kernel.Skeleton
import proofs.«140673_g84713934946541_pilotgen1_326_4_alg».proof.Proof.Gen.Kernel.Launch
import proofs.«140673_g84713934946541_pilotgen1_326_4_alg».proof.Proof.Gen.Kernel.Points
import proofs.«140673_g84713934946541_pilotgen1_326_4_alg».proof.Proof.Gen.Kernel.Frame
import proofs.«140673_g84713934946541_pilotgen1_326_4_alg».proof.Proof.Gen.KernelIdeal
import proofs.«140673_g84713934946541_pilotgen1_326_4_alg».proof.Proof.Gen.KernelIdeal.Skeleton
import proofs.«140673_g84713934946541_pilotgen1_326_4_alg».proof.Proof.Gen.KernelIdeal.Launch
import proofs.«140673_g84713934946541_pilotgen1_326_4_alg».proof.Proof.Gen.KernelIdeal.Points
import proofs.«140673_g84713934946541_pilotgen1_326_4_alg».proof.Proof.Gen.KernelIdeal.Frame
import proofs.«140673_g84713934946541_pilotgen1_326_4_alg».proof.Proof.Gen.ReferenceIdeal
import proofs.«140673_g84713934946541_pilotgen1_326_4_alg».proof.Proof.Gen.ReferenceIdeal.Run
import proofs.«140673_g84713934946541_pilotgen1_326_4_alg».proof.Proof.Gen.ReferenceIdeal.Read
import proofs.«140673_g84713934946541_pilotgen1_326_4_alg».proof.Proof.Gen.Pre_finite_inputs
import proofs.«140673_g84713934946541_pilotgen1_326_4_alg».proof.Proof.KernelRun
import proofs.«140673_g84713934946541_pilotgen1_326_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the specification's function of arguments that agree. -/
theorem algebraic : Cert.algebraic_KernelIdeal_ReferenceIdeal := by
  intro m ρ m' ρ' _ hagree
  refine ⟨_, Cert.KernelIdeal.Rms.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
